-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 40
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x1, .f32⟩
  | .hbm, ⟨32, _⟩ => ⟨S1600000x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x64, .f32⟩
  | .hbm, ⟨39, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S100000x64, .f32⟩
  | .hbm, ⟨41, _⟩ => ⟨S1600000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.LibCoord.lean ====
/-
  Coordinates of a rank-2 index typed by the literal extents, and the row of a table a start word names.
-/
import Idealize.ShloMosaic.Lib.ValueIdx

noncomputable section

namespace Cert.LibIndex

open Idealize.ShloMosaic Idealize.ShloMosaic.ValueIdx

/-- The first coordinate of a rank-2 index, typed by the literal extent. -/
def row2 {n m : ℕ} (i : (⟨2, ![n, m]⟩ : Shape).Idx) : Fin n := ⟨(i 0).val, idx2_lt0 i⟩
/-- The second coordinate of a rank-2 index, typed by the literal extent. -/
def col2 {n m : ℕ} (i : (⟨2, ![n, m]⟩ : Shape).Idx) : Fin m := ⟨(i 1).val, idx2_lt1 i⟩

@[simp] theorem row2_ix2 {n m : ℕ} (a : Fin n) (b : Fin m) : row2 (ix2 a b) = a := rfl
@[simp] theorem col2_ix2 {n m : ℕ} (a : Fin n) (b : Fin m) : col2 (ix2 a b) = b := rfl
theorem eq_ix2_rc {n m : ℕ} (i : (⟨2, ![n, m]⟩ : Shape).Idx) : i = ix2 (row2 i) (col2 i) := by
  funext a; match a with | ⟨0, _⟩ => rfl | ⟨1, _⟩ => rfl

/-- The row of an `N`-row table a start word names: the word read signed, clamped into `[0, N − 1]`. -/
def clampRow (N : ℕ) (hN : 0 < N) {w : ℕ} (x : BitVec w) : Fin N := ⟨min x.toInt.toNat (N - 1), by omega⟩

end Cert.LibIndex

end
-- ==== Proof.KTerms.lean ====
/-
  The kernel program's values as functions of plain arrays. From the edge list (row 0 the source
  nodes, row 1 the target nodes) and the edge weights: the weighted in-degree of every node (`deg`:
  the weights scattered onto the targets and summed), its inverse square root where the degree is
  positive and zero elsewhere (`dis`), kept as a column for the kernels. The first kernel region
  computes (x ⊙ dis) · W (`scaledProduct`). Between the regions each edge's message — its weight times
  the row of that product its source names — is scattered onto the targets and summed (`aggregate`).
  The second region computes logistic (aggregate ⊙ dis + bias) (`activated`). `result` composes them.
-/
import proofs.«170817_j16226386444980_1_alg».proof.Proof.Gen.KernelIdeal
import proofs.«170817_j16226386444980_1_alg».proof.Proof.LibRowDot
import proofs.«170817_j16226386444980_1_alg».proof.Proof.LibCoord
import Idealize.ShloMosaic.PureOps.Ideal.Laws
import Idealize.ShloMosaic.Lib.ValueIdx

noncomputable section

namespace Cert.KernelIdeal.HostSide

open Idealize.ShloMosaic Idealize.ShloMosaic.TcCoe Idealize.SL.Sem
open Cert.KernelIdeal Cert.KernelIdeal.Gen

/-- The source node of every edge: row 0 of the edge list. -/
def rowVec (a1 : IVec S2x1600000 32) : IVec S1600000 32 :=
  shapeCast _ (extractStridedSlice S1x1600000 ![0, 0] a1 slices_S2x1600000_S1x1600000_0_0) shapeCasts_S1x1600000_S1600000
/-- The target node of every edge: row 1 of the edge list. -/
def colVec (a1 : IVec S2x1600000 32) : IVec S1600000 32 :=
  shapeCast _ (extractStridedSlice S1x1600000 ![1, 0] a1 slices_S2x1600000_S1x1600000_1_0) shapeCasts_S1x1600000_S1600000
/-- The targets as the scatters' column of start indices. -/
def colIdx (a1 : IVec S2x1600000 32) : IVec S1600000x1 32 :=
  broadcastInDim S1600000x1 ![0] bcast_S1600000_S1600000x1_0 (colVec a1)
/-- A vector of zeros, one per node. -/
def zerosN : FVec Ideal S100000 .f32 := broadcastInDim S100000 ![] bcast_S_S100000 (constant S_ .f32 0x00000000#32)
/-- The weighted in-degree of every node. -/
def deg (a1 : IVec S2x1600000 32) (a2 : FVec Ideal S1600000 .f32) : FVec Ideal S100000 .f32 :=
  Host.scatterAdd scatter_S100000_S1600000x1_S1600000_n_0_0_1 zerosN (colIdx a1) a2
/-- Its inverse square root where it is positive, zero elsewhere. -/
def dis (a1 : IVec S2x1600000 32) (a2 : FVec Ideal S1600000 .f32) : FVec Ideal S100000 .f32 :=
  select (cmpf .ogt (deg a1 a2) zerosN) (Host.rsqrt (deg a1 a2)) zerosN
/-- The same as a column, as the kernels load it. -/
def disCol (a1 : IVec S2x1600000 32) (a2 : FVec Ideal S1600000 .f32) : FVec Ideal S100000x1 .f32 :=
  shapeCast S100000x1 (dis a1 a2) shapeCasts_S100000_S100000x1
/-- jnp's wrap of negative indices: `v + 100000` where `v < 0`, else `v`. -/
def wrapVec (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- The wrapped sources as the gather's column of start indices. -/
def rowIdx (a1 : IVec S2x1600000 32) : IVec S1600000x1 32 :=
  broadcastInDim S1600000x1 ![0] bcast_S1600000_S1600000x1_0 (wrapVec (rowVec a1))
/-- Every edge's weight along its message's 64 entries. -/
def weightMat (a2 : FVec Ideal S1600000 .f32) : FVec Ideal S1600000x64 .f32 :=
  broadcastInDim S1600000x64 ![0, 1] bcast_S1600000x1_S1600000x64_0_1 (broadcastInDim S1600000x1 ![0] bcast_S1600000_S1600000x1_0 a2)
/-- An array of zeros, one row per node. -/
def zerosNC : FVec Ideal S100000x64 .f32 := broadcastInDim S100000x64 ![] bcast_S_S100000x64 (constant S_ .f32 0x00000000#32)
/-- The messages summed at their targets: edge e sends its weight times row (source e) of `h`. -/
def aggregate (a1 : IVec S2x1600000 32) (a2 : FVec Ideal S1600000 .f32) (h : FVec Ideal S100000x64 .f32) :
    FVec Ideal S100000x64 .f32 :=
  Host.scatterAdd scatter_S100000x64_S1600000x1_S1600000x64_1_0_0_1 zerosNC (colIdx a1)
    (mulf (weightMat a2) (Host.gather gather_S100000x64_S1600000x1_S1600000x64_1_0_n_n_0_1_164 h (rowIdx a1)))
/-- The bias as a row. -/
def biasRow (a4 : FVec Ideal S64 .f32) : FVec Ideal S1x64 .f32 := shapeCast S1x64 a4 shapeCasts_S64_S1x64

end Cert.KernelIdeal.HostSide

namespace Cert.KernelIdeal.Region0

open Idealize.ShloMosaic Idealize.ShloMosaic.ValueIdx Cert.KernelIdeal Cert.LibIndex

/-- Rows of `x` scaled entrywise by the column `d`, against the columns of `W`. -/
def scaledProduct (x : S100000x128.Idx → EReal) (d : S100000x1.Idx → EReal) (W : S128x64.Idx → EReal) :
    S100000x64.Idx → EReal :=
  fun i => Cert.LibRowDot.rowDot (n := 100000) (d := 128) (h := 64)
    (fun p => x p * d (ix2 (row2 p) (0 : Fin 1))) W (row2 i) (col2 i)

end Cert.KernelIdeal.Region0

namespace Cert.KernelIdeal.Region1

open Idealize.ShloMosaic Idealize.ShloMosaic.ValueIdx Cert.KernelIdeal Cert.LibIndex

/-- The logistic function of: the row's aggregate times the row's scale, plus the column's bias. -/
def activated (a : S100000x64.Idx → EReal) (d : S100000x1.Idx → EReal) (b : S1x64.Idx → EReal) :
    S100000x64.Idx → EReal :=
  fun i => Ideal.logistic (a i * d (ix2 (row2 i) (0 : Fin 1)) + b (ix2 (0 : Fin 1) (col2 i)))

end Cert.KernelIdeal.Region1

namespace Cert.KernelIdeal.KValue

open Idealize.ShloMosaic Cert.KernelIdeal

/-- The result array of the kernel program, from the argument arrays. -/
def result (a0 : FVec Ideal S100000x128 .f32) (a1 : IVec S2x1600000 32) (a2 : FVec Ideal S1600000 .f32)
    (a3 : FVec Ideal S128x64 .f32) (a4 : FVec Ideal S64 .f32) : S100000x64.Idx → EReal :=
  Region1.activated (HostSide.aggregate a1 a2 (Region0.scaledProduct a0 (HostSide.disCol a1 a2) a3))
    (HostSide.disCol a1 a2) (HostSide.biasRow a4)

end Cert.KernelIdeal.KValue

end
-- ==== Proof.LibIndex.lean ====
/-
  Reading a row gather, a vector gather and an accumulating row scatter at an index, for ANY
  dimension-number record of the plain kind jnp's `table[idx]` and `segment_sum` print: one start
  index per row of an [E, 1] column of words, the operand's first axis collapsed (gather) or
  inserted (scatter), no batching axes. A gather reads the operand at the start word read signed
  and clamped into the operand's rows (`clampRow`); an update of a scatter that lands at an
  operand index names that index's row by its start word read signed. Also: the jnp wrap of a
  negative index (`select (v < 0) (v + n) v`) leaves a word that reads non-negative as it is.
-/
import proofs.«170817_j16226386444980_1_alg».proof.Proof.LibCoord
import Idealize.ShloMosaic.Lib.ValueIdx
import Idealize.ShloMosaic.Lib.StableHlo.Predicate
import Idealize.ShloMosaic.PureOps.Ideal.Laws

noncomputable section

namespace Cert.LibIndex

open Idealize.ShloMosaic Idealize.ShloMosaic.ValueIdx

/-- A word that reads as the row number `r` names row `r`: a natural number cast to an integer and back is itself,
    and `r ≤ N − 1` makes the clamp the identity. -/
theorem clampRow_of_toInt {N w : ℕ} (hN : 0 < N) (x : BitVec w) (r : Fin N) (h : x.toInt = (r.val : ℤ)) :
    clampRow N hN x = r := by
  apply Fin.ext
  show min x.toInt.toNat (N - 1) = r.val
  have hr := r.isLt
  rw [h, Int.toNat_natCast]
  omega

/-- In a rank-2 shape, an axis that a one-element axis list naming axis 1 leaves out is axis 0. -/
private theorem eq_zero_of_mem_kept_one {s : Shape} (hs : s.rank = 2) (l : List (Fin s.rank))
    (hl : ∃ k ∈ l, k.val = 1) (k : Fin s.rank) (hk : k ∈ s.kept l) : k.val = 0 := by
  have hk' : k ∉ l := by
    have := (List.mem_filter.1 hk).2
    simpa using this
  obtain ⟨k1, hk1, hv⟩ := hl
  have : k.val ≠ 1 := fun h => hk' (by rwa [show k = k1 from Fin.ext (h.trans hv.symm)])
  have := k.isLt
  omega

/-- THE ROW GATHER at `(e, q)`: row `clampRow idx[e, 0]` of the table, column `q`.
    On operand axis 0 (collapsed, start-indexed, slice size one) the operand index is the clamped start alone: the
    start word sits at the start indices' `(e, 0)`, `e` being the result's one batch coordinate. On operand axis 1
    (kept, not start-indexed) it is the offset coordinate alone: the result's coordinate on its one offset axis. -/
theorem gather_rows_apply {α : Type} {N C E w : ℕ} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) :
    Host.gather d x idx (ix2 e q) = x (ix2 (clampRow N hN (idx (ix2 e (0 : Fin 1)))) q) := by
  unfold Host.gather
  refine congrArg x (funext fun a => Fin.ext ?_)
  have hb : ∀ a : Fin 2, a ∉ d.operandBatchingDims := fun a => by rw [hob]; exact List.not_mem_nil
  -- the result's batch axes (the ones that are not offset axes) are axis 0 alone; its offset axes axis 1 alone
  have hbatch : ∀ k : Fin 2, k ∈ d.batchDims → k = 0 := fun k hk =>
    Fin.ext (eq_zero_of_mem_kept_one rfl d.offsetDims (by rw [hoff]; simp) k hk)
  have hoffall : ∀ k : Fin 2, k ∈ d.offsetDims → k = 1 := by rw [hoff]; simp
  match a with
  | ⟨0, _⟩ =>
    -- axis 0: collapsed, so no offset coordinate; start-indexed, with slice size one
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e 0)).toInt.toNat (N - 1)
    rw [d.batchCoord_eq_zero _ _ (hb 0), d.offCoord_eq_zero _ _ hk, Nat.add_zero]
    unfold GatherDims.start
    rw [dif_pos hm]
    show min (idx _).toInt.toNat (N - d.sliceSizes 0) = _
    rw [hsl]
    -- the start word is read at (e, 0): the batch coordinate on axis 0, component 0 on the index vector's axis
    have hsi : d.siIdx (ix2 e q) ⟨d.startIndexMap.idxOf 0, List.idxOf_lt_length_iff.2 hm⟩ = ix2 e (0 : Fin 1) := by
      funext b
      match b with
      | ⟨0, _⟩ =>
        unfold GatherDims.siIdx
        rw [dif_neg (by rw [hivd]; simp)]
        unfold GatherDims.siCoord
        apply Fin.ext
        simp only [Fin.val_cast]
        rw [hbatch _ (List.getElem_mem _)]
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    -- axis 1: kept and not start-indexed, so the start is 0 and the offset coordinate is the result's column
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [d.batchCoord_eq_zero _ _ (hb 1), Nat.add_zero]
    unfold GatherDims.start GatherDims.offCoord
    rw [dif_neg hm, dif_pos hk, Nat.zero_add, hoffall _ (List.getElem_mem _)]

/-- THE VECTOR GATHER at `e`: entry `clampRow idx[e, 0]` of the table. The rank-1 take, with the result position and
    the start indices' row written by coordinates. -/
theorem gather_vec_apply {α : Type} {N E w : ℕ} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (clampRow N hN (idx (ix2 e (0 : Fin 1))))) := by
  have h1 : ∀ {n : ℕ} (k : Fin n), (ix1 k : (⟨1, ![n]⟩ : Shape).Idx) = Shape.Idx.ofFin k := fun k => by
    funext a; match a with | ⟨0, _⟩ => rfl
  have h2 : (ix2 e (0 : Fin 1) : (⟨2, ![E, 1]⟩ : Shape).Idx) = StableHlo.Predicate.ixP e := by
    funext a; match a with | ⟨0, _⟩ => rfl | ⟨1, _⟩ => rfl
  rw [h1 e, h1, h2]
  exact StableHlo.Predicate.gather_take d hcoll hob hsim hivd x idx e hN

/-- AN UPDATE THAT LANDS names its row: if update `u` of a row scatter lands at operand index `i`, the start word
    of `u`'s row reads, signed, as `i`'s row number. On operand axis 0 (inserted, so no window coordinate) the result
    index is the start word at the scatter indices' `(row u, 0)` read signed; landing says it is not negative, so
    the natural number the result index carries casts back to it. -/
theorem scatter_rows_lands {N C E w : ℕ}
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) (i : (⟨2, ![N, C]⟩ : Shape).Idx)
    (h : d.resultIdx? u idx = some i) :
    (idx (ix2 (row2 u) (0 : Fin 1))).toInt = ((row2 i).val : ℤ) := by
  -- the updates' scatter axes (the ones that are not window axes) are axis 0 alone
  have hus : ∀ k : Fin 2, k ∈ d.uScatter → k = 0 := fun k hk =>
    Fin.ext (eq_zero_of_mem_kept_one rfl d.updateWindowDims (by rw [huw]; simp) k hk)
  have hm : (0 : Fin 2) ∈ d.scatterDimsToOperandDims := by rw [hsd]; exact List.mem_singleton.mpr rfl
  -- axis 0 is inserted: its window coordinate is 0
  have hk : (0 : Fin 2) ∉ d.sKept := by
    intro hk
    have := (List.mem_filter.1 hk).2
    rw [hiw] at this
    simp at this
  have hw : d.window u 0 = 0 := by unfold ScatterDims.window; rw [dif_neg hk]
  -- the start word is read at (row u, 0)
  have hsi : d.siIdx u ⟨d.scatterDimsToOperandDims.idxOf 0, List.idxOf_lt_length_iff.2 hm⟩ = ix2 (row2 u) (0 : Fin 1) := by
    funext b
    match b with
    | ⟨0, _⟩ =>
      unfold ScatterDims.siIdx
      rw [dif_neg (by rw [hivd]; simp)]
      unfold ScatterDims.siCoord
      apply Fin.ext
      simp only [Fin.val_cast]
      rw [hus _ (List.getElem_mem _)]
      rfl
    | ⟨1, _⟩ =>
      unfold ScatterDims.siIdx
      rw [dif_pos (by rw [hivd])]
      apply Fin.ext
      show List.idxOf (0 : Fin 2) d.scatterDimsToOperandDims = 0
      rw [hsd]; simp
  have hs : d.start u idx 0 = (idx (ix2 (row2 u) (0 : Fin 1))).toInt := by
    unfold ScatterDims.start
    rw [dif_pos hm, hsi]
  unfold ScatterDims.resultIdx? at h
  split at h
  · next hr =>
    have hi := Option.some.inj h
    subst hi
    have h0 := (hr 0).1
    show _ = (((d.start u idx 0 + d.window u 0).toNat : ℕ) : ℤ)
    rw [hw, hs] at *
    omega
  · exact absurd h (by simp)

/-- A vector of words laid out as an [E, 1] column reads the vector's entry: the operand's one axis goes to the
    column's axis 0, and where `E = 1` the coordinate `0` a unit axis reads is `e` itself. -/
theorem column_apply {α : Type} {E : ℕ} (hb : (⟨1, ![E]⟩ : Shape).BroadcastsInDim ⟨2, ![E, 1]⟩ ![0])
    (v : (⟨1, ![E]⟩ : Shape).Idx → α) (e : Fin E) :
    broadcastInDim ⟨2, ![E, 1]⟩ ![0] hb v (ix2 e (0 : Fin 1)) = v (ix1 e) := by
  unfold broadcastInDim
  refine congrArg v (funext fun a => ?_)
  match a with
  | ⟨0, _⟩ =>
    apply Fin.ext
    have he := e.isLt
    split
    · next h1 => change E = 1 at h1; show (0 : ℕ) = e.val; omega
    · rfl

/-- jnp's wrap of a negative index leaves a word that reads non-negative as it is: the signed comparison with the
    zero word is false there, so the select takes its second branch. -/
theorem wrap_apply_of_nonneg {E : ℕ} (hz : (⟨0, ![]⟩ : Shape).BroadcastsInDim ⟨1, ![E]⟩ ![])
    (v : IVec ⟨1, ![E]⟩ 32) (n : BitVec 32) (e : Fin E) (h0 : 0 ≤ (v (ix1 e)).toInt) :
    select (cmpi .slt v (broadcastInDim ⟨1, ![E]⟩ ![] hz (constantI ⟨0, ![]⟩ 32 0#32)))
        (addi v (broadcastInDim ⟨1, ![E]⟩ ![] hz (constantI ⟨0, ![]⟩ 32 n))) v (ix1 e) = v (ix1 e) := by
  have hc : cmpi .slt v (broadcastInDim ⟨1, ![E]⟩ ![] hz (constantI ⟨0, ![]⟩ 32 0#32)) (ix1 e) = 0#1 := by
    -- a broadcast scalar reads the scalar: the comparison at `e` is `v e <ₛ 0`
    show IntOp.cmpi .slt (v (ix1 e)) 0#32 = 0#1
    apply eq_zero_of_ne_one
    intro hlt
    change BitVec.ofBool ((v (ix1 e)).slt 0#32) = 1#1 at hlt
    have hlt' : (v (ix1 e)).slt 0#32 = true := by
      cases hb : (v (ix1 e)).slt 0#32 with
      | true => rfl
      | false => rw [hb] at hlt; exact absurd hlt (by decide)
    rw [BitVec.slt_eq_decide, decide_eq_true_eq, BitVec.toInt_zero] at hlt'
    omega
  rw [select_apply, hc, select_zero]

end Cert.LibIndex

end
-- ==== Proof.KRegion0.lean ====
/-
  The first kernel region's output array. Each of the ten grid points loads a block of 10000 rows of
  `x`, the matching 10000 entries of the per-row scale `d` (kept as a column) and the whole of `W`,
  and stores (x ⊙ d) · W for its rows: row r of the result is row r of `x`, each entry scaled by `d r`,
  against the columns of `W`. The ten blocks tile the rows, so the array after the region is that one
  function of the arrays the region found, index by index.
-/
import proofs.«170817_j16226386444980_1_alg».proof.Proof.Gen.KernelIdeal.Frame
import proofs.«170817_j16226386444980_1_alg».proof.Proof.LibRowDot
import proofs.«170817_j16226386444980_1_alg».proof.Proof.KTerms
import proofs.«170817_j16226386444980_1_alg».proof.Proof.LibIndex
import Idealize.ShloMosaic.Lib.Pipeline.Value
import Idealize.ShloMosaic.Lib.ValueIdx
import Idealize.ShloMosaic.Lib.ValueLayout

noncomputable section

namespace Cert.KernelIdeal.Region0

open Idealize.ShloMosaic Idealize.ShloMosaic.TcCoe Idealize.SL.Sem Idealize.ShloMosaic.ValueIdx
open Cert.KernelIdeal Cert.KernelIdeal.Gen Cert.LibIndex

variable (V : (c : Dev nD) → (b : Ref sig .tc) → Buf (Elt Ideal) ((c : Thread nD τ).loc b))

/-! ## The payload at an index -/

/-- The column scale spread over the 128 feature columns, read at row `p`, column `k`: entry `p` of the column. -/
theorem scale_apply (x1 : Vec Ideal S10000x1 .f32) (p : Fin 10000) (k : Fin 128) :
    broadcastTo S10000x128 (shapeCast S10000x1 x1 shapeCasts_S10000x1_S10000x1) broadcasts_S10000x1_S10000x128 (ix2 p k)
      = x1 (ix2 p (0 : Fin 1)) := by
  rw [shapeCast_self]
  refine broadcastTo_apply x1 _ (ix2 p k) (ix2 p (0 : Fin 1)) ?_
  intro a
  match a with
  | ⟨0, _⟩ => rfl
  | ⟨1, _⟩ => rfl

/-- The body's payload at row `p`, column `q` of its block: the contraction into a zero accumulator is the sum over
    the 128 features (the dimension numbers are those of a plain matrix product), the two format changes are the
    identity at the ideal values, and the left factor is the loaded block times the scale of its row. -/
theorem payload_apply (x0 : Vec Ideal S10000x128 .f32) (x1 : Vec Ideal S10000x1 .f32) (x2 : Vec Ideal S128x64 .f32)
    (p : Fin 10000) (q : Fin 64) :
    k0_pay1 x0 x1 x2 (ix2 p q)
      = Cert.LibRowDot.rowDot (n := 10000) (d := 128) (h := 64) (fun y => x0 y * x1 (ix2 (row2 y) (0 : Fin 1))) x2 p q := by
  unfold k0_pay1
  refine (Ideal.matmul_constant_zero_apply _ none _ _ (ix2 p q)).trans ?_
  refine (Cert.LibRowDot.sum_contr_eq_rowDot (n := 10000) (d := 128) (h := 64)
    dot_S10000x128_S128x64_S10000x64_1_0_0_1_n_n rfl rfl rfl rfl rfl rfl _ _ (ix2 p q)).trans ?_
  unfold Cert.LibRowDot.rowDot
  refine Finset.sum_congr rfl fun k _ => ?_
  show x0 (ix2 p k)
        * broadcastTo S10000x128 (shapeCast S10000x1 x1 shapeCasts_S10000x1_S10000x1) broadcasts_S10000x1_S10000x128 (ix2 p k)
        * x2 (ix2 k q)
      = x0 (ix2 p k) * x1 (ix2 p (0 : Fin 1)) * x2 (ix2 k q)
  rw [scale_apply]

/-! ## One block of rows against the whole array -/

/-- If the three loaded blocks are block `b` of the rows of `X`, block `b` of the column `D`, and the whole of
    `W`, the payload at the block's index `j` is `scaledProduct X D W` at the array index `i` that sits at row
    `b · 10000 + (row of j)`, same column. -/
theorem block_value (x0 : Vec Ideal S10000x128 .f32) (x1 : Vec Ideal S10000x1 .f32) (x2 : Vec Ideal S128x64 .f32)
    (X : S100000x128.Idx → EReal) (D : S100000x1.Idx → EReal) (W : S128x64.Idx → EReal) (b : ℕ)
    (h0 : ∀ (y : S10000x128.Idx) (z : S100000x128.Idx), (z 0).val = b * 10000 + (y 0).val → (z 1).val = (y 1).val → x0 y = X z)
    (h1 : ∀ (y : S10000x1.Idx) (z : S100000x1.Idx), (z 0).val = b * 10000 + (y 0).val → x1 y = D z)
    (h2 : x2 = W)
    (j : S10000x64.Idx) (i : S100000x64.Idx) (hi0 : (i 0).val = b * 10000 + (j 0).val) (hi1 : (i 1).val = (j 1).val) :
    k0_pay1 x0 x1 x2 j = scaledProduct X D W i := by
  rw [eq_ix2_rc j, payload_apply]
  unfold scaledProduct Cert.LibRowDot.rowDot
  refine Finset.sum_congr rfl fun k _ => ?_
  have hq : col2 j = col2 i := Fin.ext hi1.symm
  rw [h2, hq]
  refine congrArg (· * W (ix2 k (col2 i))) ?_
  show x0 (ix2 (row2 j) k) * x1 (ix2 (row2 j) (0 : Fin 1)) = X (ix2 (row2 i) k) * D (ix2 (row2 i) (0 : Fin 1))
  rw [h0 (ix2 (row2 j) k) (ix2 (row2 i) k) hi0 rfl, h1 (ix2 (row2 j) (0 : Fin 1)) (ix2 (row2 i) (0 : Fin 1)) hi0]

/-! ## What each point writes back -/

theorem hz : (![0, 0] : Fin 2 → Nat) = fun _ => 0 := funext fun a => by fin_cases a <;> rfl

/-- The printed index maps, decided over the ten points: the blocks of `x`, of the scale column and of the result move
    together along the rows, stay at column block 0, and `W` is fetched whole at every point. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) ≤ 9
    ∧ win0_3.index t (1 : Fin 2) = 0 :=
  (by decide +kernel : ∀ t : Fin grid0.N, _)

/-- Every block of rows is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

set_option maxHeartbeats 400000 in
/-- WHAT POINT `t` WRITES BACK is block `t` of `scaledProduct` of the three arrays as the region finds them. -/
theorem flushed_eq (c : Dev nD) (t : Fin cfg0.N) :
    (dat0 (F := Ideal) V c).flushed 3 t
      = ((cfg0.win 3).blk t).view.read (Elt Ideal) (scaledProduct (V c main_arg0) (V c main_v11) (V c main_arg3)) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x64) hz]
  obtain ⟨e0, e1, e2, e3, e4, e5, e6, e7⟩ := idx_facts t
  funext j
  show k0_pay1 (iblk0 V c 0 t) (iblk0 V c 1 t) (iblk0 V c 2 t) j
      = scaledProduct (V c main_arg0) (V c main_v11) (V c main_arg3) (((cfg0.win 3).blk t).view.emb j)
  refine block_value (iblk0 V c 0 t) (iblk0 V c 1 t) (iblk0 V c 2 t) (V c main_arg0) (V c main_v11) (V c main_arg3)
    (win0_3.index t (0 : Fin 2)) ?_ ?_ ?_ j (((cfg0.win 3).blk t).view.emb j) ?_ ?_
  · -- the block of `x`: rows b · 10000 + p, all 128 columns
    intro y z hz0 hz1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · -- the block of the scale column: the same rows, its one column
    intro y z hz0
    show V c main_v11 (((cfg0.win 1).blk t).view.emb y) = V c main_v11 z
    refine congrArg _ (funext fun a => Fin.ext ?_)
    match a with
    | ⟨0, _⟩ => show win0_1.index t (0 : Fin 2) * 10000 + 1 * (y 0).val = (z 0).val; omega
    | ⟨1, _⟩ =>
      show win0_1.index t (1 : Fin 2) * 1 + 1 * (y 1).val = (z 1).val
      have hy : (y 1).val < 1 := idx2_lt1 y
      have hz' : (z 1).val < 1 := idx2_lt1 z
      omega
  · -- `W` whole
    funext y
    show V c main_arg3 (((cfg0.win 2).blk t).view.emb y) = V c main_arg3 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  · show win0_3.index t (0 : Fin 2) * 10000 + 1 * (j 0).val = win0_3.index t (0 : Fin 2) * 10000 + (j 0).val; omega
  · show win0_3.index t (1 : Fin 2) * 64 + 1 * (j 1).val = (j 1).val; omega

/-! ## The ten blocks tile the rows -/

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v12).slice (win0_3.rect t)).set ↔ _
  rw [View.set_slice_whole, Rect.mem_set_unit]
  exact Iff.rfl

/-- Row `r` lies in the block of the point whose block index is `r / 10000`: every index is covered. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- The array region 0 leaves in its output window: `scaledProduct` of the three arrays it found. -/
theorem value (c : Dev nD) :
    (dat0 (F := Ideal) V c).arrAt 3 cfg0.N = scaledProduct (V c main_arg0) (V c main_v11) (V c main_arg3) :=
  (dat0 (F := Ideal) V c).arrAt_eq_of_cover 3 (scaledProduct (V c main_arg0) (V c main_v11) (V c main_arg3))
    (fun t _ => flushed_eq V c t) cover

end Cert.KernelIdeal.Region0

end
-- ==== Proof.KRegion1.lean ====
/-
  The second kernel region's output array. Each of the ten grid points loads a block of 10000 rows of
  the aggregated messages `a`, the matching entries of the per-row scale `d` (a column) and the bias
  row `b`, and stores logistic (a ⊙ d + b) for its rows. The ten blocks tile the rows, so the array after
  the region is that one function of the arrays the region found, index by index.
-/
import proofs.«170817_j16226386444980_1_alg».proof.Proof.Gen.KernelIdeal.Frame
import proofs.«170817_j16226386444980_1_alg».proof.Proof.LibIndex
import proofs.«170817_j16226386444980_1_alg».proof.Proof.KTerms
import Idealize.ShloMosaic.Lib.Pipeline.Value
import Idealize.ShloMosaic.Lib.ValueIdx
import Idealize.ShloMosaic.Lib.ValueLayout

noncomputable section

namespace Cert.KernelIdeal.Region1

open Idealize.ShloMosaic Idealize.ShloMosaic.TcCoe Idealize.SL.Sem Idealize.ShloMosaic.ValueIdx
open Cert.KernelIdeal Cert.KernelIdeal.Gen Cert.LibIndex

variable (V : (c : Dev nD) → (b : Ref sig .tc) → Buf (Elt Ideal) ((c : Thread nD τ).loc b))

/-- A `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's result at `(p, q)`: the logistic function of the aggregate at `(p, q)` times the scale at row `p`, plus
    the bias at column `q` (the shape casts are identities; the two broadcasts read the column at the row and the row at
    the column). -/
theorem payload_apply (x0 : Vec Ideal S10000x64 .f32) (x1 : Vec Ideal S10000x1 .f32) (x2 : Vec Ideal S1x64 .f32)
    (p : Fin 10000) (q : Fin 64) :
    k1_pay1 x0 x1 x2 (ix2 p q)
      = Ideal.logistic (x0 (ix2 p q) * x1 (ix2 p (0 : Fin 1)) + x2 (ix2 (0 : Fin 1) q)) := by
  unfold k1_pay1
  rw [shapeCast_self, shapeCast_self, shapeCast_self]
  show Ideal.logistic (x0 (ix2 p q) * broadcastTo S10000x64 x1 _ (ix2 p q) + broadcastTo S10000x64 x2 _ (ix2 p q)) = _
  rw [broadcastTo_a1_ab_apply, broadcastTo_1b_ab_apply]

/-- The body's result at `(p, q)` is `activated` at the array index `i`, as soon as the three loaded blocks
    hold, at `(p, q)`, row `p` and column `q`, what the arrays hold at `i`, at `i`'s row and at `i`'s column. -/
theorem payload_eq_activated (x0 : Vec Ideal S10000x64 .f32) (x1 : Vec Ideal S10000x1 .f32) (x2 : Vec Ideal S1x64 .f32)
    (a : S100000x64.Idx → EReal) (d : S100000x1.Idx → EReal) (b : S1x64.Idx → EReal) (i : S100000x64.Idx)
    (p : Fin 10000) (q : Fin 64) (h0 : x0 (ix2 p q) = a i)
    (h1 : x1 (ix2 p (0 : Fin 1)) = d (ix2 (row2 i) (0 : Fin 1)))
    (h2 : x2 (ix2 (0 : Fin 1) q) = b (ix2 (0 : Fin 1) (col2 i))) :
    k1_pay1 x0 x1 x2 (ix2 p q) = activated a d b i := by
  rw [payload_apply, h0, h1, h2]; rfl

/-- The origin of a block, spelt both ways. -/
theorem origin_eq : (![0, 0] : Fin 2 → Nat) = fun _ => 0 := funext fun a => by fin_cases a <;> rfl

/-- The index maps, decided over the ten grid points: the aggregate's and the scale's blocks move down the rows
    with the output's, which is block `t` at point `t`; the bias row's block stays at the origin. -/
theorem index_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `activated` of the three arrays: the body's one store leaves its payload,
    each load reads its window's whole block, and an element of an input block sits in its array where the output block's
    element does (its row for the scale, its column for the bias): block index × block size + the coordinate inside. -/
theorem flushed_eq (c : Dev nD) (t : Fin cfg1.N) :
    (dat1 V c).flushed 3 t
      = ((cfg1.win 3).blk t).view.read (Elt Ideal) (activated (V c main_v25) (V c main_v11) (V c main_v26)) := by
  show (cfg1.win 3).cut (grid1.coords t) ((dat1 V c).after 3 t) = _
  rw [after1_3]
  unfold out1_3
  rw [View.canon_unit_zero origin_eq]
  simp only [View.ld_unit_zero (S := S10000x64) origin_eq, View.ld_unit_zero (S := S10000x1) origin_eq,
    View.ld_unit_zero (S := S1x64) origin_eq]
  funext j
  obtain ⟨p, q, rfl⟩ : ∃ (p : Fin 10000) (q : Fin 64), j = ix2 p q :=
    ⟨row2 (n := 10000) (m := 64) j, col2 (n := 10000) (m := 64) j, eq_ix2_rc (n := 10000) (m := 64) j⟩
  obtain ⟨e00, e01, e10, e11, e20, e21, e30, e31⟩ := index_facts t
  show k1_pay1 (iblk1 V c 0 t) (iblk1 V c 1 t) (iblk1 V c 2 t) (ix2 p q)
    = activated (V c main_v25) (V c main_v11) (V c main_v26) (((cfg1.win 3).blk t).view.emb (ix2 p q))
  refine payload_eq_activated _ _ _ _ _ _ _ p q ?_ ?_ ?_
  · show V c main_v25 (((cfg1.win 0).blk t).view.emb (ix2 p q))
      = V c main_v25 (((cfg1.win 3).blk t).view.emb (ix2 p q))
    refine congrArg _ (funext fun a => Fin.ext ?_)
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 64 + 1 * q.val = win1_3.index t (1 : Fin 2) * 64 + 1 * q.val
      omega
  · show V c main_v11 (((cfg1.win 1).blk t).view.emb (ix2 p (0 : Fin 1)))
      = V c main_v11 (ix2 (row2 (n := 100000) (m := 64) (((cfg1.win 3).blk t).view.emb (ix2 p q))) (0 : Fin 1))
    refine congrArg _ (funext fun a => Fin.ext ?_)
    match a with
    | ⟨0, _⟩ =>
      show win1_1.index t (0 : Fin 2) * 10000 + 1 * p.val = win1_3.index t (0 : Fin 2) * 10000 + 1 * p.val
      omega
    | ⟨1, _⟩ =>
      show win1_1.index t (1 : Fin 2) * 1 + 1 * 0 = 0
      omega
  · show V c main_v26 (((cfg1.win 2).blk t).view.emb (ix2 (0 : Fin 1) q))
      = V c main_v26 (ix2 (0 : Fin 1) (col2 (n := 100000) (m := 64) (((cfg1.win 3).blk t).view.emb (ix2 p q))))
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 64 + 1 * q.val = win1_3.index t (1 : Fin 2) * 64 + 1 * q.val
      omega

/-- An index of the output array is in point `t`'s block iff, on each axis, its coordinate is in the block's range. -/
theorem mem_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v27).slice (win1_3.rect t)).set ↔ _
  rw [View.set_slice_whole, Rect.mem_set_unit]
  exact Iff.rfl

/-- The ten blocks tile the rows: row `r` lies in the block of point `r / 10000`, which is written back. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, e30, e31⟩ := index_facts t
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- The array region 1 leaves in its output window: `activated` of the three arrays it found. -/
theorem value (c : Dev nD) :
    (dat1 (F := Ideal) V c).arrAt 3 cfg1.N = activated (V c main_v25) (V c main_v11) (V c main_v26) :=
  (dat1 V c).arrAt_eq_of_cover 3 (activated (V c main_v25) (V c main_v11) (V c main_v26))
    (fun t _ => flushed_eq V c t) covered

end Cert.KernelIdeal.Region1

end
-- ==== Proof.KHost.lean ====
/-
  What the host operations around the two kernel regions compute, as functions of the argument arrays,
  and the buffers each region finds at its entry. From the edge list (row 0 the source nodes, row 1 the
  target nodes) and the edge weights: the weighted in-degree of every node (`deg`: the weights scattered
  onto the targets and summed), its inverse square root where the degree is positive and zero elsewhere
  (`dis`), kept as a column for the kernels; between the regions, each edge's message — its weight times
  the row of the first region's result that its source names — scattered onto the targets and summed
  (`aggregate`); and the bias as a row.
-/
import proofs.«170817_j16226386444980_1_alg».proof.Proof.Gen.KernelIdeal.Frame
import proofs.«170817_j16226386444980_1_alg».proof.Proof.KTerms
import Idealize.ShloMosaic.Lib.StableHlo.Run
import Idealize.ShloMosaic.PureOps.Ideal.Laws

noncomputable section

namespace Cert.KernelIdeal.HostSide

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Walking the run back, one boundary at a time -/

/-- A stretch of host operations leaves a buffer that none of them writes. -/
local macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ### After the first stretch (the edge list's two rows, the degree, its test and its inverse root) -/

theorem W1_v1 (c : Dev nD) : W1 m ρ c (Proc.devRef .tc main_v1) = rowVec (m ((c : Thread nD τ).loc main_arg1)) := by
  show StableHlo.after hostOps0 (W0 m ρ c) (Proc.devRef .tc main_v1) = _
  after_results
  rfl
theorem W1_v3 (c : Dev nD) : W1 m ρ c (Proc.devRef .tc main_v3) = colVec (m ((c : Thread nD τ).loc main_arg1)) := by
  show StableHlo.after hostOps0 (W0 m ρ c) (Proc.devRef .tc main_v3) = _
  after_results
  rfl
theorem W1_v8 (c : Dev nD) : W1 m ρ c (Proc.devRef .tc main_v8)
    = cmpf .ogt (deg (m ((c : Thread nD τ).loc main_arg1)) (m ((c : Thread nD τ).loc main_arg2))) zerosN := by
  show StableHlo.after hostOps0 (W0 m ρ c) (Proc.devRef .tc main_v8) = _
  after_results
  rfl
theorem W1_v9 (c : Dev nD) : W1 m ρ c (Proc.devRef .tc main_v9)
    = Host.rsqrt (deg (m ((c : Thread nD τ).loc main_arg1)) (m ((c : Thread nD τ).loc main_arg2))) := by
  show StableHlo.after hostOps0 (W0 m ρ c) (Proc.devRef .tc main_v9) = _
  after_results
  rfl
theorem W1_cst1 (c : Dev nD) : W1 m ρ c (Proc.devRef .tc main_cst_1) = constant (F := Ideal) S_ .f32 0x00000000#32 := by
  show StableHlo.after hostOps0 (W0 m ρ c) (Proc.devRef .tc main_cst_1) = _
  after_results
theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  keeps hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  keeps hostOps0

/-! ### After the choice between the inverse root and zero

The stretch's result is stated as a function of the contents the stretch starts at, then read at the contents
the first stretch leaves. -/

/-- The choice as a function of the test, the inverse root and the scalar zero. -/
private def disOf (t : IVec S100000 1) (r : FVec Ideal S100000 .f32) (z : FVec Ideal S_ .f32) : FVec Ideal S100000 .f32 :=
  select t r (broadcastInDim S100000 ![] bcast_S_S100000 z)

private theorem after01_v10 (V : Valuation τ sig (Elt Ideal)) :
    StableHlo.after hostOps0_1 V (Proc.devRef .tc main_v10)
      = disOf (V (Proc.devRef .tc main_v8)) (V (Proc.devRef .tc main_v9)) (V (Proc.devRef .tc main_cst_1)) := by
  after_results
  rfl

theorem W2_v10 (c : Dev nD) : W2 m ρ c (Proc.devRef .tc main_v10)
    = dis (m ((c : Thread nD τ).loc main_arg1)) (m ((c : Thread nD τ).loc main_arg2)) := by
  refine (after01_v10 (W1 m ρ c)).trans ?_
  rw [W1_v8, W1_v9, W1_cst1]
  rfl
theorem W2_of_W1 (c : Dev nD) (b : Ref sig .tc) (h0 : b ≠ main_call0_v0) (h1 : b ≠ main_v10) :
    W2 m ρ c (Proc.devRef .tc b) = W1 m ρ c (Proc.devRef .tc b) := by
  refine StableHlo.after_of_forall_not_mem _ _ (List.forall_iff_forall_mem.mp ?_)
  simp only [hostOps0_1, List.Forall, StableHlo.unary_writes, StableHlo.ternary_writes, Finset.mem_singleton]
  exact ⟨StableHlo.devRef_ne_of_ne h0, StableHlo.devRef_ne_of_ne h1⟩

/-! ### After the reshape to a column (the first region's entry) -/

/-- A vector over the nodes as a column. -/
private def colOf (d : FVec Ideal S100000 .f32) : FVec Ideal S100000x1 .f32 :=
  shapeCast S100000x1 d shapeCasts_S100000_S100000x1

private theorem after02_v11 (V : Valuation τ sig (Elt Ideal)) :
    StableHlo.after hostOps0_2 V (Proc.devRef .tc main_v11) = colOf (V (Proc.devRef .tc main_v10)) := by
  after_results
  rfl

theorem W3_v11 (c : Dev nD) : W3 m ρ c (Proc.devRef .tc main_v11)
    = disCol (m ((c : Thread nD τ).loc main_arg1)) (m ((c : Thread nD τ).loc main_arg2)) := by
  refine (after02_v11 (W2 m ρ c)).trans ?_
  rw [W2_v10]
  rfl
theorem W3_of_W2 (c : Dev nD) (b : Ref sig .tc) (h : b ≠ main_v11) :
    W3 m ρ c (Proc.devRef .tc b) = W2 m ρ c (Proc.devRef .tc b) := by
  refine StableHlo.after_of_forall_not_mem _ _ (List.forall_iff_forall_mem.mp ?_)
  simp only [hostOps0_2, List.Forall, StableHlo.reshape_writes, Finset.mem_singleton]
  exact StableHlo.devRef_ne_of_ne h

/-- A buffer that neither the choice nor the reshape writes is, at the first region's entry, as the first stretch left it. -/
theorem W3_of_W1 (c : Dev nD) (b : Ref sig .tc) (h0 : b ≠ main_call0_v0) (h1 : b ≠ main_v10) (h2 : b ≠ main_v11) :
    W3 m ρ c (Proc.devRef .tc b) = W1 m ρ c (Proc.devRef .tc b) :=
  (W3_of_W2 m ρ c b h2).trans (W2_of_W1 m ρ c b h0 h1)

/-! ### At the first region's exit -/

theorem W4_v1 (c : Dev nD) : W4 m ρ c (Proc.devRef .tc main_v1) = rowVec (m ((c : Thread nD τ).loc main_arg1)) :=
  (W4_of_ne m ρ c main_v1 (by decide)).trans ((W3_of_W1 m ρ c main_v1 (by decide) (by decide) (by decide)).trans (W1_v1 m ρ c))
theorem W4_v3 (c : Dev nD) : W4 m ρ c (Proc.devRef .tc main_v3) = colVec (m ((c : Thread nD τ).loc main_arg1)) :=
  (W4_of_ne m ρ c main_v3 (by decide)).trans ((W3_of_W1 m ρ c main_v3 (by decide) (by decide) (by decide)).trans (W1_v3 m ρ c))
theorem W4_arg2 (c : Dev nD) : W4 m ρ c (Proc.devRef .tc main_arg2) = m ((c : Thread nD τ).loc main_arg2) :=
  (W4_of_ne m ρ c main_arg2 (by decide)).trans ((W3_of_W1 m ρ c main_arg2 (by decide) (by decide) (by decide)).trans (W1_arg2 m ρ c))
theorem W4_arg4 (c : Dev nD) : W4 m ρ c (Proc.devRef .tc main_arg4) = m ((c : Thread nD τ).loc main_arg4) :=
  (W4_of_ne m ρ c main_arg4 (by decide)).trans ((W3_of_W1 m ρ c main_arg4 (by decide) (by decide) (by decide)).trans (W1_arg4 m ρ c))
/-- The column is the first region's second window, an input: the region hands it back as it found it. -/
theorem W4_v11 (c : Dev nD) : W4 m ρ c (Proc.devRef .tc main_v11)
    = disCol (m ((c : Thread nD τ).loc main_arg1)) (m ((c : Thread nD τ).loc main_arg2)) :=
  ((W4_arr m ρ c 1).trans (((dat0 (V3 m ρ) c).arrAt_in 1 rfl _).trans (A_eq0 (V3 m ρ) c 1))).trans (W3_v11 m ρ c)

/-! ### After the second stretch (the second region's entry), from any contents it starts at -/

/-- The messages summed at their targets, as a function of the sources, the targets, the weights and the rows. -/
private def aggregateOf (rv cv : IVec S1600000 32) (a2 : FVec Ideal S1600000 .f32) (h : FVec Ideal S100000x64 .f32) :
    FVec Ideal S100000x64 .f32 :=
  Host.scatterAdd scatter_S100000x64_S1600000x1_S1600000x64_1_0_0_1 zerosNC
    (broadcastInDim S1600000x1 ![0] bcast_S1600000_S1600000x1_0 cv)
    (mulf (weightMat a2) (Host.gather gather_S100000x64_S1600000x1_S1600000x64_1_0_n_n_0_1_164 h
      (broadcastInDim S1600000x1 ![0] bcast_S1600000_S1600000x1_0 (wrapVec rv))))

private theorem after1_v25 (V : Valuation τ sig (Elt Ideal)) :
    StableHlo.after hostOps1 V (Proc.devRef .tc main_v25)
      = aggregateOf (V (Proc.devRef .tc main_v1)) (V (Proc.devRef .tc main_v3)) (V (Proc.devRef .tc main_arg2))
          (V (Proc.devRef .tc main_v12)) := by
  after_results
  rfl

private theorem after1_v26 (V : Valuation τ sig (Elt Ideal)) :
    StableHlo.after hostOps1 V (Proc.devRef .tc main_v26) = biasRow (V (Proc.devRef .tc main_arg4)) := by
  after_results
  rfl

/-! ## What the first region finds -/

theorem entry0_x (c : Dev nD) : W3 m ρ c (Proc.devRef .tc main_arg0) = m ((c : Thread nD τ).loc main_arg0) :=
  (W3_of_W1 m ρ c main_arg0 (by decide) (by decide) (by decide)).trans (W1_arg0 m ρ c)
theorem entry0_w (c : Dev nD) : W3 m ρ c (Proc.devRef .tc main_arg3) = m ((c : Thread nD τ).loc main_arg3) :=
  (W3_of_W1 m ρ c main_arg3 (by decide) (by decide) (by decide)).trans (W1_arg3 m ρ c)
theorem entry0_d (c : Dev nD) : W3 m ρ c (Proc.devRef .tc main_v11)
    = disCol (m ((c : Thread nD τ).loc main_arg1)) (m ((c : Thread nD τ).loc main_arg2)) :=
  W3_v11 m ρ c

/-! ## What the second region finds -/

theorem entry1_a (c : Dev nD) : W5 m ρ c (Proc.devRef .tc main_v25)
    = aggregate (m ((c : Thread nD τ).loc main_arg1)) (m ((c : Thread nD τ).loc main_arg2)) (W4 m ρ c (Proc.devRef .tc main_v12)) := by
  refine (after1_v25 (W4 m ρ c)).trans ?_
  rw [W4_v1, W4_v3, W4_arg2]
  rfl
theorem entry1_d (c : Dev nD) : W5 m ρ c (Proc.devRef .tc main_v11)
    = disCol (m ((c : Thread nD τ).loc main_arg1)) (m ((c : Thread nD τ).loc main_arg2)) := by
  refine Eq.trans ?_ (W4_v11 m ρ c)
  show StableHlo.after hostOps1 (W4 m ρ c) (Proc.devRef .tc main_v11) = W4 m ρ c (Proc.devRef .tc main_v11)
  keeps hostOps1
theorem entry1_b (c : Dev nD) : W5 m ρ c (Proc.devRef .tc main_v26) = biasRow (m ((c : Thread nD τ).loc main_arg4)) := by
  refine (after1_v26 (W4 m ρ c)).trans ?_
  rw [W4_arg4]

end Cert.KernelIdeal.HostSide

end
-- ==== Proof.KValue.lean ====
/-
  The kernel program's result as one function of the five argument arrays. The second region's
  output array is `activated` of what that region found: the aggregated messages, the coefficient
  column and the bias row. The aggregated messages are `aggregate` of the edge list, the weights and
  the first region's output array, which is `scaledProduct` of what the first region found: `x`, the
  coefficient column and `W`.
-/
import proofs.«170817_j16226386444980_1_alg».proof.Proof.KRegion0
import proofs.«170817_j16226386444980_1_alg».proof.Proof.KRegion1
import proofs.«170817_j16226386444980_1_alg».proof.Proof.KHost

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the first region leaves in its output array. -/
theorem first_output (c : Dev nD) : W4 m ρ c (Proc.devRef .tc main_v12)
    = Region0.scaledProduct (m ((c : Thread nD τ).loc main_arg0))
        (HostSide.disCol (m ((c : Thread nD τ).loc main_arg1)) (m ((c : Thread nD τ).loc main_arg2)))
        (m ((c : Thread nD τ).loc main_arg3)) := by
  have h : W4 m ρ c (Proc.devRef .tc main_v12) = (dat0 (V3 m ρ) c).arrAt 3 cfg0.N := W4_arr m ρ c 3
  rw [h, Region0.value (V3 m ρ) c]
  show Region0.scaledProduct (W3 m ρ c (Proc.devRef .tc main_arg0)) (W3 m ρ c (Proc.devRef .tc main_v11))
      (W3 m ρ c (Proc.devRef .tc main_arg3)) = _
  rw [HostSide.entry0_x, HostSide.entry0_d, HostSide.entry0_w]

/-- The result buffer after the run is `result` of the argument arrays. -/
theorem value (c : Dev nD) : W6 m ρ c (Proc.devRef .tc main_v27)
    = result (m ((c : Thread nD τ).loc main_arg0)) (m ((c : Thread nD τ).loc main_arg1))
        (m ((c : Thread nD τ).loc main_arg2)) (m ((c : Thread nD τ).loc main_arg3)) (m ((c : Thread nD τ).loc main_arg4)) := by
  have h : W6 m ρ c (Proc.devRef .tc main_v27) = (dat1 (V5 m ρ) c).arrAt 3 cfg1.N := W6_arr m ρ c 3
  rw [h, Region1.value (V5 m ρ) c]
  show Region1.activated (W5 m ρ c (Proc.devRef .tc main_v25)) (W5 m ρ c (Proc.devRef .tc main_v11))
      (W5 m ρ c (Proc.devRef .tc main_v26)) = _
  rw [HostSide.entry1_a, HostSide.entry1_d, HostSide.entry1_b, first_output]
  rfl

end Cert.KernelIdeal.KValue

end
-- ==== Proof.RefSide.lean ====
/-
  The reference program's result as one function of the five argument arrays, in named pieces: the
  weighted in-degree and its inverse square root (zero where the degree is not positive); each edge's
  normalisation coefficient, the source's coefficient times the weight times the target's coefficient;
  the product x · W; each edge's message, its coefficient times the product's row at its source,
  summed at the targets; the bias added; and 1 / (1 + exp (−·)) of that.
-/
import proofs.«170817_j16226386444980_1_alg».proof.Proof.Gen.ReferenceIdeal.Run
import Idealize.ShloMosaic.PureOps.Ideal.Laws

noncomputable section

namespace Cert.ReferenceIdeal.RefSide

open Idealize.ShloMosaic Idealize.ShloMosaic.TcCoe Idealize.SL.Sem
open Cert.ReferenceIdeal Cert.ReferenceIdeal.Gen

/-- The source node of every edge: row 0 of the edge list. -/
def rowVec (a1 : IVec S2x1600000 32) : IVec S1600000 32 :=
  shapeCast _ (extractStridedSlice S1x1600000 ![0, 0] a1 slices_S2x1600000_S1x1600000_0_0) shapeCasts_S1x1600000_S1600000
/-- The target node of every edge: row 1 of the edge list. -/
def colVec (a1 : IVec S2x1600000 32) : IVec S1600000 32 :=
  shapeCast _ (extractStridedSlice S1x1600000 ![1, 0] a1 slices_S2x1600000_S1x1600000_1_0) shapeCasts_S1x1600000_S1600000
/-- The targets as the scatters' column of start indices. -/
def colIdx (a1 : IVec S2x1600000 32) : IVec S1600000x1 32 :=
  broadcastInDim S1600000x1 ![0] bcast_S1600000_S1600000x1_0 (colVec a1)
/-- A vector of zeros, one per node. -/
def zerosN : FVec Ideal S100000 .f32 := broadcastInDim S100000 ![] bcast_S_S100000 (constant S_ .f32 0x00000000#32)
/-- The weighted in-degree of every node. -/
def deg (a1 : IVec S2x1600000 32) (a2 : FVec Ideal S1600000 .f32) : FVec Ideal S100000 .f32 :=
  Host.scatterAdd scatter_S100000_S1600000x1_S1600000_n_0_0_1 zerosN (colIdx a1) a2
/-- Its inverse square root where it is positive, zero elsewhere. -/
def dis (a1 : IVec S2x1600000 32) (a2 : FVec Ideal S1600000 .f32) : FVec Ideal S100000 .f32 :=
  select (cmpf .ogt (deg a1 a2) zerosN) (Host.rsqrt (deg a1 a2)) zerosN
/-- jnp's wrap of negative indices: `v + 100000` where `v < 0`, else `v`. -/
def wrapVec (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- The wrapped sources as a gather's column of start indices. -/
def rowIdx (a1 : IVec S2x1600000 32) : IVec S1600000x1 32 :=
  broadcastInDim S1600000x1 ![0] bcast_S1600000_S1600000x1_0 (wrapVec (rowVec a1))
/-- The wrapped targets as a gather's column of start indices. -/
def tgtIdx (a1 : IVec S2x1600000 32) : IVec S1600000x1 32 :=
  broadcastInDim S1600000x1 ![0] bcast_S1600000_S1600000x1_0 (wrapVec (colVec a1))
/-- Every edge's coefficient: source's `dis` times weight times target's `dis`. -/
def norm (a1 : IVec S2x1600000 32) (a2 : FVec Ideal S1600000 .f32) : FVec Ideal S1600000 .f32 :=
  mulf (mulf (Host.gather gather_S100000_S1600000x1_S1600000_n_0_n_n_0_1_1 (dis a1 a2) (rowIdx a1)) a2)
    (Host.gather gather_S100000_S1600000x1_S1600000_n_0_n_n_0_1_1 (dis a1 a2) (tgtIdx a1))
/-- Every edge's coefficient along its message's 64 entries. -/
def normMat (a1 : IVec S2x1600000 32) (a2 : FVec Ideal S1600000 .f32) : FVec Ideal S1600000x64 .f32 :=
  broadcastInDim S1600000x64 ![0, 1] bcast_S1600000x1_S1600000x64_0_1 (broadcastInDim S1600000x1 ![0] bcast_S1600000_S1600000x1_0 (norm a1 a2))
/-- The linear transform x · W. -/
def product (a0 : FVec Ideal S100000x128 .f32) (a3 : FVec Ideal S128x64 .f32) : FVec Ideal S100000x64 .f32 :=
  Host.dotGeneral dot_S100000x128_S128x64_S100000x64_1_0_0_1_n_n none a0 a3
/-- An array of zeros, one row per node. -/
def zerosNC : FVec Ideal S100000x64 .f32 := broadcastInDim S100000x64 ![] bcast_S_S100000x64 (constant S_ .f32 0x00000000#32)
/-- The messages summed at their targets. -/
def aggregate (a0 : FVec Ideal S100000x128 .f32) (a1 : IVec S2x1600000 32) (a2 : FVec Ideal S1600000 .f32)
    (a3 : FVec Ideal S128x64 .f32) : FVec Ideal S100000x64 .f32 :=
  Host.scatterAdd scatter_S100000x64_S1600000x1_S1600000x64_1_0_0_1 zerosNC (colIdx a1)
    (mulf (normMat a1 a2) (Host.gather gather_S100000x64_S1600000x1_S1600000x64_1_0_n_n_0_1_164 (product a0 a3) (rowIdx a1)))
/-- The bias along every node's row. -/
def biasMat (a4 : FVec Ideal S64 .f32) : FVec Ideal S100000x64 .f32 :=
  broadcastInDim S100000x64 ![0, 1] bcast_S1x64_S100000x64_0_1 (broadcastInDim S1x64 ![1] bcast_S64_S1x64_1 a4)
/-- An array of ones. -/
def onesNC : FVec Ideal S100000x64 .f32 := broadcastInDim S100000x64 ![] bcast_S_S100000x64 (constant S_ .f32 0x3F800000#32)
/-- The result array of the reference program, from the argument arrays. -/
def result (a0 : FVec Ideal S100000x128 .f32) (a1 : IVec S2x1600000 32) (a2 : FVec Ideal S1600000 .f32)
    (a3 : FVec Ideal S128x64 .f32) (a4 : FVec Ideal S64 .f32) : FVec Ideal S100000x64 .f32 :=
  Host.divf onesNC (addf onesNC (Host.exp (Host.negf (addf (aggregate a0 a1 a2 a3) (biasMat a4)))))

/-- The generated run's composed term is `result` of the argument arrays: the same operations, named. -/
theorem res_eq (m : (ℓ : Loc nD τ sig) → Buf (Elt Ideal) ℓ) (c : Dev nD) :
    Cert.ReferenceIdeal.Value.res_main_v49 (F := Ideal) m c
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.Value.res_main_v49 result aggregate biasMat onesNC zerosNC product normMat norm tgtIdx rowIdx wrapVec dis deg zerosN colIdx colVec rowVec
  rfl

end Cert.ReferenceIdeal.RefSide

end
-- ==== Proof.Law.lean ====
/-
  The algebra that joins the two programs, on the extended reals. For one output entry, let S be the
  edges whose message lands on its node. The kernel scales every source row by the source's
  coefficient before the product with the weight matrix, sums the weighted rows over S, and scales
  the sum by the target's coefficient; the reference multiplies each edge's weight by both
  coefficients first and sums the unscaled product rows. Over the reals these agree: a product
  distributes over a finite sum, and multiplication is commutative and associative. On the extended
  reals a product does not distribute over a sum at the infinities, so every factor is required to
  be a real number; the bias is added last on both sides and may be any extended real.
-/
import Idealize.ShloMosaic.PureOps.Ideal.Laws
import Idealize.ShloMosaic.Lib.IdealHost

noncomputable section

open scoped BigOperators

namespace Cert.Law

open Idealize.ShloMosaic

/-- An extended real that is a real number. -/
def IsReal (x : EReal) : Prop := x ≠ ⊤ ∧ x ≠ ⊥

theorem isReal_coe (r : ℝ) : IsReal (r : EReal) := ⟨EReal.coe_ne_top r, EReal.coe_ne_bot r⟩

theorem isReal_zero : IsReal (0 : EReal) := by
  have := isReal_coe 0
  simpa using this

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    have h1 := hf a (Finset.mem_insert_self a s)
    have h2 := ih (fun i hi => hf i (Finset.mem_insert_of_mem hi))
    obtain ⟨x, hx⟩ : ∃ x : ℝ, f a = x := ⟨(f a).toReal, (EReal.coe_toReal h1.1 h1.2).symm⟩
    obtain ⟨y, hy⟩ : ∃ y : ℝ, ∑ i ∈ s, f i = y := ⟨_, (EReal.coe_toReal h2.1 h2.2).symm⟩
    rw [hx, hy, ← EReal.coe_add]
    exact isReal_coe _

/-- THE LAW. Scaling the source rows before the product and the sum by the target's coefficient after it is
    multiplying each edge's weight by the two coefficients before the sum. -/
theorem preact_eq {ι : Type} (S : Finset ι) {K : ℕ} (wv dr dc : ι → EReal) (xr Wc : ι → Fin K → EReal) (dj bq : EReal)
    (hw : ∀ u, IsReal (wv u)) (hdr : ∀ u, IsReal (dr u)) (hx : ∀ u k, IsReal (xr u k)) (hW : ∀ u k, IsReal (Wc u k))
    (hdj : IsReal dj) (hdc : ∀ u ∈ S, dc u = dj) :
    (0 + ∑ u ∈ S, wv u * ∑ k, (xr u k * dr u) * Wc u k) * dj + bq
      = (0 + ∑ u ∈ S, ((dr u * wv u) * dc u) * ∑ k, xr u k * Wc u k) + bq := by
  have hR : ∑ u ∈ S, ((dr u * wv u) * dc u) * ∑ k, xr u k * Wc u k
      = ∑ u ∈ S, ((dr u * wv u) * dj) * ∑ k, xr u k * Wc u k :=
    Finset.sum_congr rfl (fun u hu => by rw [hdc u hu])
  rw [hR]
  lift wv to ι → ℝ using hw
  lift dr to ι → ℝ using hdr
  lift xr to ι → Fin K → ℝ using hx
  lift Wc to ι → Fin K → ℝ using hW
  lift dj to ℝ using hdj
  congr 1
  simp only [zero_add, ← EReal.coe_mul, ← coe_sum]
  congr 1
  rw [Finset.sum_mul]
  refine Finset.sum_congr rfl fun u _ => ?_
  simp only [Finset.mul_sum, Finset.sum_mul]
  refine Finset.sum_congr rfl fun k _ => ?_
  ring

/-- The law with the two programs' summands given as functions that ARE those expressions: for any summands `fR`,
    `fK` equal, update by update, to the reference's and the kernel's forms, the two pre-activations agree. -/
theorem preact_of_summands {ι : Type} (S : Finset ι) {K : ℕ} (fR fK : ι → EReal) (wv dr dc : ι → EReal)
    (xr Wc : ι → Fin K → EReal) (dj bq : EReal)
    (hR : ∀ u, fR u = ((dr u * wv u) * dc u) * ∑ k, xr u k * Wc u k)
    (hK : ∀ u, fK u = wv u * ∑ k, (xr u k * dr u) * Wc u k)
    (hw : ∀ u, IsReal (wv u)) (hdr : ∀ u, IsReal (dr u)) (hx : ∀ u k, IsReal (xr u k)) (hW : ∀ u k, IsReal (Wc u k))
    (hdj : IsReal dj) (hdc : ∀ u ∈ S, dc u = dj) :
    (0 + ∑ u ∈ S, fR u) + bq = (0 + ∑ u ∈ S, fK u) * dj + bq := by
  rw [Finset.sum_congr rfl (fun u _ => hR u), Finset.sum_congr rfl (fun u _ => hK u)]
  exact (preact_eq S wv dr dc xr Wc dj bq hw hdr hx hW hdj hdc).symm

/-- The host's `1 / (1 + exp (−y))`, with the literal one as its f32 pattern, is the logistic function of `y`. -/
theorem div_one_add_exp_neg (y : EReal) :
    Ideal.div (Ideal.ofBits .f32 0x3F800000#32) (Ideal.ofBits .f32 0x3F800000#32 + Ideal.exp (-y)) = Ideal.logistic y := by
  rw [Ideal.ofBits_one_f32]; rfl

end Cert.Law

end
-- ==== Proof.Finite.lean ====
/-
  Where the inputs are real numbers. The precondition says of each float input that every entry's
  absolute value is below +∞, conjoined over the four float inputs; on the extended reals that is:
  every entry is a real number. From real edge weights every node's weighted in-degree is a finite
  sum of reals, hence real, and its inverse square root where it is positive (zero elsewhere) is
  real too.
-/
import proofs.«170817_j16226386444980_1_alg».proof.Defs
import proofs.«170817_j16226386444980_1_alg».proof.Proof.Gen.Pre_finite_inputs
import proofs.«170817_j16226386444980_1_alg».proof.Proof.Law
import proofs.«170817_j16226386444980_1_alg».proof.Proof.KTerms
import Idealize.ShloMosaic.Lib.ReduceAll
import Idealize.ShloMosaic.Lib.ValueIdx

noncomputable section

namespace Cert.Finite

open Idealize.ShloMosaic Idealize.ShloMosaic.ValueIdx Cert.Law

/-! ## The finiteness test, one entry at a time -/

/-- The f32 pattern with all exponent bits set and no fraction bit denotes +∞. -/
theorem inf_pattern : Ideal.ofBits .f32 0x7F800000#32 = ⊤ := by
  simp [Ideal.ofBits, Ideal.ieee]

/-- An extended real whose absolute value is strictly below +∞ is a real number: at +∞ and at −∞ the
    absolute value is +∞, which is not below itself. -/
theorem isReal_of_abs_lt (x : EReal)
    (h : Ideal.cmp .olt (max x (-x)) (Ideal.ofBits .f32 0x7F800000#32) = 1#1) : IsReal x := by
  rw [inf_pattern] at h
  induction x using EReal.rec with
  | bot => simp [Ideal.cmp] at h
  | top => simp [Ideal.cmp] at h
  | coe r => exact isReal_coe r

/-- One entry of the test `|x| < +∞` being 1 says that entry of `x` is a real number. -/
theorem isReal_of_finite_bit {s : Shape}
    (hb : Cert.Pre_finite_inputs.S_.BroadcastsInDim s (![] : Fin 0 → Fin s.rank))
    (x : FVec Ideal s .f32) (i : s.Idx)
    (h : cmpf .olt (Host.absf x)
        (broadcastInDim s ![] hb (constant Cert.Pre_finite_inputs.S_ .f32 0x7F800000#32)) i = 1#1) :
    IsReal (x i) := by
  rw [cmpf_apply, broadcastInDim_scalar_apply, constant_apply] at h
  exact isReal_of_abs_lt (x i) h

/-- The shape of a single bit has one index. -/
instance : Subsingleton Cert.Pre_finite_inputs.S_.Idx := ⟨fun a b => funext fun d => d.elim0⟩

/-- Under the precondition every entry of every float input is a real number. -/
theorem inputs_real (a0 : FVec Ideal Cert.Pre_finite_inputs.S100000x128 .f32) (a1 : IVec Cert.Pre_finite_inputs.S2x1600000 32)
    (a2 : FVec Ideal Cert.Pre_finite_inputs.S1600000 .f32) (a3 : FVec Ideal Cert.Pre_finite_inputs.S128x64 .f32)
    (a4 : FVec Ideal Cert.Pre_finite_inputs.S64 .f32)
    (h : Cert.Pre_finite_inputs.fn (F := Ideal) a0 a1 a2 a3 a4 = fun _ => 1#1) :
    (∀ i, IsReal (a0 i)) ∧ (∀ i, IsReal (a2 i)) ∧ (∀ i, IsReal (a3 i)) ∧ (∀ i, IsReal (a4 i)) := by
  -- The one bit of the precondition is the conjunction of four conjunctions over all entries.
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  -- A conjunction over all entries that is 1 has a 1 at every entry, and a 1 there says the entry is real.
  refine ⟨fun i => ?_, fun i => ?_, fun i => ?_, fun i => ?_⟩
  · exact isReal_of_finite_bit _ a0 i (Host.reduce_andi_all _ _ _ _ _ h1 i)
  · exact isReal_of_finite_bit _ a2 i (Host.reduce_andi_all _ _ _ _ _ h2 i)
  · exact isReal_of_finite_bit _ a3 i (Host.reduce_andi_all _ _ _ _ _ h3 i)
  · exact isReal_of_finite_bit _ a4 i (Host.reduce_andi_all _ _ _ _ _ h4 i)

/-! ## The degree and its inverse square root -/

/-- The sum of two real numbers is a real number. -/
theorem isReal_add {x y : EReal} (hx : IsReal x) (hy : IsReal y) : IsReal (x + y) := by
  lift x to ℝ using hx
  lift y to ℝ using hy
  rw [← EReal.coe_add]
  exact isReal_coe _

/-- An accumulating scatter of real updates onto a real array is real at every index: the entry it starts
    from plus a finite sum of updates, whichever of them land there. -/
theorem hostScatterAdd_isReal {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact isReal_add (hx i) (isReal_sum _ _ (fun j _ => hu j))

/-- The same of the host's scatter with an `add` body, over arrays of any shapes. -/
theorem scatterAdd_isReal {s si su : Shape} {w : Nat} (d : ScatterDims s si su) (x : FVec Ideal s .f32)
    (idx : IVec si w) (upd : FVec Ideal su .f32) (hx : ∀ i, IsReal (x i)) (hu : ∀ j, IsReal (upd j)) (i : s.Idx) :
    IsReal (Host.scatterAdd d x idx upd i) :=
  hostScatterAdd_isReal d x idx upd hx hu i

/-- On a real number r, choosing 1/√r where a bit that is only set when r is positive is set, and zero
    elsewhere, gives a real number: the inverse square root of a positive real is the real (√r)⁻¹. -/
theorem isReal_select_rsqrt (r : ℝ) (b : BitVec 1) (hb : b = 1#1 → 0 < r) :
    IsReal (Scalar.select b (Ideal.rsqrt (r : EReal)) 0) := by
  unfold Scalar.select
  by_cases h : b = 1
  · have hr := hb h
    rw [if_pos h, Ideal.rsqrt_coe, if_neg (not_lt.mpr hr.le), if_neg hr.ne']
    exact isReal_coe _
  · rw [if_neg h]
    exact isReal_zero

/-- Over arrays of any shape: where `D` is real and `z` is zero, the entry of "1/√D where D > z, else z" is real. -/
theorem select_rsqrt_isReal {s : Shape} (D z : FVec Ideal s .f32) (j : s.Idx) (hD : IsReal (D j)) (hz : z j = 0) :
    IsReal (select (cmpf .ogt D z) (Host.rsqrt D) z j) := by
  obtain ⟨r, hr⟩ : ∃ r : ℝ, D j = (r : EReal) := ⟨_, (EReal.coe_toReal hD.1 hD.2).symm⟩
  have e : select (cmpf .ogt D z) (Host.rsqrt D) z j
      = Scalar.select (Ideal.cmp .ogt (D j) (z j)) (Ideal.rsqrt (D j)) (z j) := rfl
  rw [e, hz, hr]
  refine isReal_select_rsqrt r _ (fun hb => ?_)
  -- The bit is the truth value of `0 < r`; were that false the bit would be 0.
  by_contra hn
  simp [Ideal.cmp, hn] at hb

/-- The vector of zeros reads the extended real zero at every node. -/
theorem zerosN_apply (j : Cert.KernelIdeal.S100000.Idx) : Cert.KernelIdeal.HostSide.zerosN j = 0 := by
  unfold Cert.KernelIdeal.HostSide.zerosN
  rw [broadcastInDim_scalar_apply, constant_apply, Ideal.ofBits_zero_f32]

/-- With real edge weights every node's weighted in-degree is real. -/
theorem deg_isReal (a1 : IVec Cert.KernelIdeal.S2x1600000 32) (a2 : FVec Ideal Cert.KernelIdeal.S1600000 .f32)
    (h2 : ∀ e, IsReal (a2 e)) (j : Cert.KernelIdeal.S100000.Idx) :
    IsReal (Cert.KernelIdeal.HostSide.deg a1 a2 j) := by
  have hx : ∀ i, IsReal (Cert.KernelIdeal.HostSide.zerosN i) := fun i => (zerosN_apply i).symm ▸ isReal_zero
  delta Cert.KernelIdeal.HostSide.deg
  exact scatterAdd_isReal _ _ _ _ hx h2 j

/-- With real edge weights the per-node coefficient (inverse square root of a positive degree, else zero) is real. -/
theorem dis_isReal (a1 : IVec Cert.KernelIdeal.S2x1600000 32) (a2 : FVec Ideal Cert.KernelIdeal.S1600000 .f32)
    (h2 : ∀ e, IsReal (a2 e)) (j : Cert.KernelIdeal.S100000.Idx) :
    IsReal (Cert.KernelIdeal.HostSide.dis a1 a2 j) := by
  delta Cert.KernelIdeal.HostSide.dis
  exact select_rsqrt_isReal _ _ j (deg_isReal a1 a2 h2 j) (zerosN_apply j)

end Cert.Finite

end
-- ==== Proof.Bridge.lean ====
/-
  The two programs compute one function. Index by index: both results are the logistic function of
  a pre-activation; both pre-activations are a sum over the same set of landing updates (the same
  scatter numbers over the same column of target indices) plus the same bias entry; and update by
  update the kernel's summand, scaled by the target's coefficient, is the reference's summand — the
  algebraic law of the module on the law — because the rows the two gathers read are the same row
  (one clamped source index), and an update that lands on a node has that node as its clamped,
  wrapped target.
-/
import proofs.«170817_j16226386444980_1_alg».proof.Proof.KTerms
import proofs.«170817_j16226386444980_1_alg».proof.Proof.RefSide
import proofs.«170817_j16226386444980_1_alg».proof.Proof.LibIndex
import proofs.«170817_j16226386444980_1_alg».proof.Proof.LibRowDot
import proofs.«170817_j16226386444980_1_alg».proof.Proof.Law
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.Bridge

open Idealize.ShloMosaic Idealize.ShloMosaic.ValueIdx Cert.LibIndex Cert.Law
open Cert.KernelIdeal Cert.KernelIdeal.HostSide

/-! ## The shared pieces are the same terms in both programs -/

theorem colIdx_eq (a1 : IVec S2x1600000 32) : Cert.ReferenceIdeal.RefSide.colIdx a1 = colIdx a1 := rfl
theorem rowIdx_eq (a1 : IVec S2x1600000 32) : Cert.ReferenceIdeal.RefSide.rowIdx a1 = rowIdx a1 := rfl
theorem colVec_eq (a1 : IVec S2x1600000 32) : Cert.ReferenceIdeal.RefSide.colVec a1 = colVec a1 := rfl
theorem wrapVec_eq (v : IVec S1600000 32) : Cert.ReferenceIdeal.RefSide.wrapVec v = wrapVec v := rfl
theorem dis_eq (a1 : IVec S2x1600000 32) (a2 : FVec Ideal S1600000 .f32) : Cert.ReferenceIdeal.RefSide.dis a1 a2 = dis a1 a2 := rfl
theorem zerosNC_eq : Cert.ReferenceIdeal.RefSide.zerosNC = zerosNC := rfl
theorem scatter_eq : Cert.ReferenceIdeal.scatter_S100000x64_S1600000x1_S1600000x64_1_0_0_1
    = Cert.KernelIdeal.scatter_S100000x64_S1600000x1_S1600000x64_1_0_0_1 := rfl

/-! ## Reads at an index -/

theorem zerosNC_apply (i : S100000x64.Idx) : zerosNC i = 0 := by
  unfold zerosNC
  rw [broadcastInDim_scalar_apply]
  exact Ideal.ofBits_zero_f32

theorem onesNC_apply (i : S100000x64.Idx) : Cert.ReferenceIdeal.RefSide.onesNC i = 1 := by
  unfold Cert.ReferenceIdeal.RefSide.onesNC
  rw [broadcastInDim_scalar_apply]
  exact Ideal.ofBits_one_f32

theorem disCol_apply (a1 : IVec S2x1600000 32) (a2 : FVec Ideal S1600000 .f32) (j : Fin 100000) :
    disCol a1 a2 (ix2 j (0 : Fin 1)) = dis a1 a2 (ix1 j) := by
  unfold disCol
  refine shapeCast_apply _ _ _ _ ?_
  rw [Shape.rowMajor_val_two, Shape.rowMajor_val_one]
  show j.val = j.val * 1 + 0
  omega

theorem biasRow_apply (a4 : FVec Ideal S64 .f32) (q : Fin 64) : biasRow a4 (ix2 (0 : Fin 1) q) = a4 (ix1 q) := by
  unfold biasRow
  exact shapeCast_a_1a_apply a4 _ 0 q

theorem biasMat_apply (a4 : FVec Ideal S64 .f32) (j : Fin 100000) (q : Fin 64) :
    Cert.ReferenceIdeal.RefSide.biasMat a4 (ix2 j q) = a4 (ix1 q) := by
  unfold Cert.ReferenceIdeal.RefSide.biasMat
  rw [broadcastInDim_apply _ _ _ _ (ix2 (0 : Fin 1) q) (fun a => by
    match a with
    | ⟨0, _⟩ => rfl
    | ⟨1, _⟩ => rfl)]
  exact broadcastInDim_apply _ _ _ _ (ix1 q) (fun a => by
    match a with
    | ⟨0, _⟩ => rfl)

theorem weightMat_apply (a2 : FVec Ideal S1600000 .f32) (e : Fin 1600000) (q : Fin 64) :
    weightMat a2 (ix2 e q) = a2 (ix1 e) := by
  unfold weightMat
  rw [broadcastInDim_apply _ _ _ _ (ix2 e (0 : Fin 1)) (fun a => by
    match a with
    | ⟨0, _⟩ => rfl
    | ⟨1, _⟩ => rfl)]
  exact broadcastInDim_apply _ _ _ _ (ix1 e) (fun a => by
    match a with
    | ⟨0, _⟩ => rfl)

theorem normMat_apply (a1 : IVec S2x1600000 32) (a2 : FVec Ideal S1600000 .f32) (e : Fin 1600000) (q : Fin 64) :
    Cert.ReferenceIdeal.RefSide.normMat a1 a2 (ix2 e q) = Cert.ReferenceIdeal.RefSide.norm a1 a2 (ix1 e) := by
  unfold Cert.ReferenceIdeal.RefSide.normMat
  rw [broadcastInDim_apply _ _ _ _ (ix2 e (0 : Fin 1)) (fun a => by
    match a with
    | ⟨0, _⟩ => rfl
    | ⟨1, _⟩ => rfl)]
  exact broadcastInDim_apply _ _ _ _ (ix1 e) (fun a => by
    match a with
    | ⟨0, _⟩ => rfl)

theorem scaledProduct_apply (a0 : FVec Ideal S100000x128 .f32) (d : FVec Ideal S100000x1 .f32) (a3 : FVec Ideal S128x64 .f32)
    (r : Fin 100000) (q : Fin 64) :
    Region0.scaledProduct a0 d a3 (ix2 r q) = ∑ k : Fin 128, (a0 (ix2 r k) * d (ix2 r (0 : Fin 1))) * a3 (ix2 k q) := rfl

theorem product_apply (a0 : FVec Ideal S100000x128 .f32) (a3 : FVec Ideal S128x64 .f32) (r : Fin 100000) (q : Fin 64) :
    Cert.ReferenceIdeal.RefSide.product a0 a3 (ix2 r q) = ∑ k : Fin 128, a0 (ix2 r k) * a3 (ix2 k q) := by
  unfold Cert.ReferenceIdeal.RefSide.product Host.dotGeneral
  exact Cert.LibRowDot.dotGeneral_apply _ rfl rfl rfl rfl rfl rfl _ _ _ _ _

/-! ## The accumulating scatter and one update's summand on each side -/

/-- The host's accumulating scatter at an index: the operand's entry plus the sum of the updates that land there. -/
theorem scatterAdd_apply {s si su : Shape} {w : ℕ} (d : ScatterDims s si su) (x : FVec Ideal s .f32) (idx : IVec si w)
    (upd : FVec Ideal su .f32) (i : s.Idx) :
    Host.scatterAdd d x idx upd i = x i + ∑ u ∈ Finset.univ.filter (fun u => d.resultIdx? u idx = some i), upd u := rfl

theorem hN : 0 < 100000 := by norm_num

theorem colIdx_apply (a1 : IVec S2x1600000 32) (e : Fin 1600000) : colIdx a1 (ix2 e (0 : Fin 1)) = colVec a1 (ix1 e) := by
  unfold colIdx; exact column_apply _ _ _

theorem tgtIdx_apply (a1 : IVec S2x1600000 32) (e : Fin 1600000) :
    Cert.ReferenceIdeal.RefSide.tgtIdx a1 (ix2 e (0 : Fin 1)) = wrapVec (colVec a1) (ix1 e) := by
  unfold Cert.ReferenceIdeal.RefSide.tgtIdx
  rw [column_apply, wrapVec_eq, colVec_eq]

theorem wrapVec_of_nonneg (v : IVec S1600000 32) (e : Fin 1600000) (h0 : 0 ≤ (v (ix1 e)).toInt) : wrapVec v (ix1 e) = v (ix1 e) := by
  unfold wrapVec
  exact wrap_apply_of_nonneg _ _ _ _ h0

-- from here on the shared terms are opaque: nothing below looks inside the degree, the coefficient or the index columns
attribute [local irreducible] Cert.KernelIdeal.HostSide.dis Cert.KernelIdeal.HostSide.deg Cert.KernelIdeal.HostSide.rowIdx
  Cert.KernelIdeal.HostSide.colIdx Cert.KernelIdeal.HostSide.colVec Cert.KernelIdeal.HostSide.rowVec Cert.KernelIdeal.HostSide.wrapVec
  Cert.KernelIdeal.HostSide.disCol Cert.KernelIdeal.HostSide.weightMat Cert.KernelIdeal.HostSide.zerosNC Cert.KernelIdeal.HostSide.biasRow
  Cert.ReferenceIdeal.RefSide.dis Cert.ReferenceIdeal.RefSide.deg Cert.ReferenceIdeal.RefSide.rowIdx Cert.ReferenceIdeal.RefSide.colIdx
  Cert.ReferenceIdeal.RefSide.tgtIdx Cert.ReferenceIdeal.RefSide.normMat Cert.ReferenceIdeal.RefSide.product
  Cert.ReferenceIdeal.RefSide.zerosNC Cert.ReferenceIdeal.RefSide.onesNC Cert.ReferenceIdeal.RefSide.biasMat
  Cert.KernelIdeal.Region0.scaledProduct

/-- The row of the table edge `e`'s source names: its wrapped index, clamped into the table. -/
def src (a1 : IVec S2x1600000 32) (e : Fin 1600000) : Fin 100000 := clampRow 100000 hN (rowIdx a1 (ix2 e (0 : Fin 1)))
/-- The row of the table edge `e`'s target names: its wrapped index, clamped into the table. -/
def tgt (a1 : IVec S2x1600000 32) (e : Fin 1600000) : Fin 100000 :=
  clampRow 100000 hN (Cert.ReferenceIdeal.RefSide.tgtIdx a1 (ix2 e (0 : Fin 1)))

variable (a0 : FVec Ideal S100000x128 .f32) (a1 : IVec S2x1600000 32) (a2 : FVec Ideal S1600000 .f32)
  (a3 : FVec Ideal S128x64 .f32)

/-- The kernel's message entry: the edge's weight times its source's row of the scaled product. -/
theorem kernel_msg (u : S1600000x64.Idx) :
    (mulf (weightMat a2) (Host.gather gather_S100000x64_S1600000x1_S1600000x64_1_0_n_n_0_1_164
        (Region0.scaledProduct a0 (disCol a1 a2) a3) (rowIdx a1))) u
      = a2 (ix1 (row2 u)) * ∑ k : Fin 128, (a0 (ix2 (src a1 (row2 u)) k) * dis a1 a2 (ix1 (src a1 (row2 u)))) * a3 (ix2 k (col2 u)) := by
  obtain ⟨e, q, rfl⟩ : ∃ (e : Fin 1600000) (q : Fin 64), u = ix2 e q := ⟨row2 u, col2 u, eq_ix2_rc u⟩
  rw [mulf_apply, weightMat_apply,
    gather_rows_apply hN gather_S100000x64_S1600000x1_S1600000x64_1_0_n_n_0_1_164 rfl rfl rfl rfl rfl,
    scaledProduct_apply, disCol_apply]
  simp only [src, row2_ix2, col2_ix2, Ideal.mulf_def]

/-- The reference's message entry: the edge's coefficient times its source's row of the product. -/
theorem ref_msg (u : S1600000x64.Idx) :
    (mulf (Cert.ReferenceIdeal.RefSide.normMat a1 a2)
        (Host.gather Cert.ReferenceIdeal.gather_S100000x64_S1600000x1_S1600000x64_1_0_n_n_0_1_164
          (Cert.ReferenceIdeal.RefSide.product a0 a3) (Cert.ReferenceIdeal.RefSide.rowIdx a1))) u
      = ((dis a1 a2 (ix1 (src a1 (row2 u))) * a2 (ix1 (row2 u))) * dis a1 a2 (ix1 (tgt a1 (row2 u))))
          * ∑ k : Fin 128, a0 (ix2 (src a1 (row2 u)) k) * a3 (ix2 k (col2 u)) := by
  obtain ⟨e, q, rfl⟩ : ∃ (e : Fin 1600000) (q : Fin 64), u = ix2 e q := ⟨row2 u, col2 u, eq_ix2_rc u⟩
  rw [mulf_apply, normMat_apply,
    gather_rows_apply hN Cert.ReferenceIdeal.gather_S100000x64_S1600000x1_S1600000x64_1_0_n_n_0_1_164 rfl rfl rfl rfl rfl,
    product_apply]
  unfold Cert.ReferenceIdeal.RefSide.norm
  rw [mulf_apply, mulf_apply,
    gather_vec_apply hN Cert.ReferenceIdeal.gather_S100000_S1600000x1_S1600000_n_0_n_n_0_1_1 rfl rfl rfl rfl,
    gather_vec_apply hN Cert.ReferenceIdeal.gather_S100000_S1600000x1_S1600000_n_0_n_n_0_1_1 rfl rfl rfl rfl,
    dis_eq, rowIdx_eq]
  simp only [src, tgt, row2_ix2, col2_ix2, Ideal.mulf_def]

/-- An update that lands on a node has that node as its clamped, wrapped target: its start word reads as the node's
    number, which is not negative, so the wrap leaves it and the clamp is the identity. -/
theorem tgt_of_lands (u : S1600000x64.Idx) (i : S100000x64.Idx)
    (h : scatter_S100000x64_S1600000x1_S1600000x64_1_0_0_1.resultIdx? u (colIdx a1) = some i) :
    tgt a1 (row2 u) = row2 i := by
  have h1 := scatter_rows_lands scatter_S100000x64_S1600000x1_S1600000x64_1_0_0_1 rfl rfl rfl rfl (colIdx a1) u i h
  rw [colIdx_apply] at h1
  unfold tgt
  refine clampRow_of_toInt hN _ _ ?_
  rw [tgtIdx_apply, wrapVec_of_nonneg _ _ (by rw [h1]; exact Int.natCast_nonneg _)]
  exact h1

attribute [local irreducible] Cert.KernelIdeal.HostSide.aggregate Cert.ReferenceIdeal.RefSide.aggregate

theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl
theorem logistic_of_div (y : EReal) : Ideal.div 1 (1 + Ideal.exp (-y)) = Ideal.logistic y := rfl

/-- The pre-activations agree over ANY finite set of updates that all land on node `j` (in column `q`). -/
theorem preact_over (a4 : FVec Ideal S64 .f32) (h0 : ∀ i, IsReal (a0 i)) (h2 : ∀ i, IsReal (a2 i)) (h3 : ∀ i, IsReal (a3 i))
    (hdis : ∀ j, IsReal (dis a1 a2 j)) (j : Fin 100000) (q : Fin 64) (S : Finset S1600000x64.Idx)
    (hS : ∀ u ∈ S, scatter_S100000x64_S1600000x1_S1600000x64_1_0_0_1.resultIdx? u (colIdx a1) = some (ix2 j q)) :
    (0 + ∑ u ∈ S, mulf (Cert.ReferenceIdeal.RefSide.normMat a1 a2)
          (Host.gather Cert.ReferenceIdeal.gather_S100000x64_S1600000x1_S1600000x64_1_0_n_n_0_1_164
            (Cert.ReferenceIdeal.RefSide.product a0 a3) (Cert.ReferenceIdeal.RefSide.rowIdx a1)) u) + a4 (ix1 q)
      = (0 + ∑ u ∈ S, mulf (weightMat a2) (Host.gather gather_S100000x64_S1600000x1_S1600000x64_1_0_n_n_0_1_164
            (Region0.scaledProduct a0 (disCol a1 a2) a3) (rowIdx a1)) u) * dis a1 a2 (ix1 j) + a4 (ix1 q) :=
  preact_of_summands S _ _ (fun u => a2 (ix1 (row2 u))) (fun u => dis a1 a2 (ix1 (src a1 (row2 u))))
    (fun u => dis a1 a2 (ix1 (tgt a1 (row2 u)))) (fun u k => a0 (ix2 (src a1 (row2 u)) k)) (fun u k => a3 (ix2 k (col2 u)))
    (dis a1 a2 (ix1 j)) (a4 (ix1 q)) (ref_msg a0 a1 a2 a3) (kernel_msg a0 a1 a2 a3)
    (fun u => h2 _) (fun u => hdis _) (fun u k => h0 _) (fun u k => h3 _) (hdis _)
    (fun u hu => by
      show dis a1 a2 (ix1 (tgt a1 (row2 u))) = dis a1 a2 (ix1 j)
      rw [tgt_of_lands a1 u _ (hS u hu)]
      simp only [row2_ix2])

/-! ## The two results are one function -/

/-- With real inputs the reference's result is the kernel's, index by index. -/
theorem result_eq (a4 : FVec Ideal S64 .f32) (h0 : ∀ i, IsReal (a0 i)) (h2 : ∀ i, IsReal (a2 i)) (h3 : ∀ i, IsReal (a3 i))
    (hdis : ∀ j, IsReal (dis a1 a2 j)) :
    Cert.ReferenceIdeal.RefSide.result a0 a1 a2 a3 a4 = Cert.KernelIdeal.KValue.result a0 a1 a2 a3 a4 := by
  funext i
  obtain ⟨j, q, rfl⟩ : ∃ (j : Fin 100000) (q : Fin 64), i = ix2 j q := ⟨row2 i, col2 i, eq_ix2_rc i⟩
  unfold Cert.ReferenceIdeal.RefSide.result Cert.KernelIdeal.KValue.result Cert.KernelIdeal.Region1.activated
  rw [hostDivf_apply, addf_apply, hostExp_apply, hostNegf_apply, addf_apply, onesNC_apply, biasMat_apply]
  simp only [row2_ix2, col2_ix2]
  rw [disCol_apply, biasRow_apply, logistic_of_div]
  refine congrArg Ideal.logistic ?_
  unfold Cert.ReferenceIdeal.RefSide.aggregate Cert.KernelIdeal.HostSide.aggregate
  rw [scatterAdd_apply, scatterAdd_apply, zerosNC_eq, zerosNC_apply, colIdx_eq, scatter_eq]
  exact preact_over a0 a1 a2 a3 a4 h0 h2 h3 hdis j q _ (fun u hu => (Finset.mem_filter.1 hu).2)

end Cert.Bridge

end
-- ==== Proof.lean ====
/-
  The certificate of a graph-convolution layer: N = 100000 nodes, E = 1600000 weighted edges, 128 input
  and 64 output features, followed by the logistic function. With deg j the sum of the weights of the
  edges into node j and dis j = 1/√(deg j) where deg j > 0 (zero elsewhere), the reference computes

      out[j] = logistic ( Σ_{e into j} dis[src e] · w[e] · dis[j] · (x · W)[src e]  +  b ),

  while the kernel program scales the rows first and the sums last: a first kernel region computes
  hs = (x ⊙ dis) · W block by block, the host gathers w[e] · hs[src e] and sums it at the targets, and a second
  kernel region computes logistic (agg ⊙ dis + b) block by block. On the extended reals the two agree where
  every factor is a real number — a product then distributes over a finite sum — which the precondition
  (every float input finite) gives: the degree is a finite sum of real weights, so dis is real too.
  Indices are arbitrary 32-bit words: both programs read a source through the same wrapped and clamped
  index, both drop an edge whose target is out of range, and an edge that is not dropped has its target
  unchanged by the wrap and the clamp.

  The three frames: the two kernel programs' are their frame certificates (each region's body run once per
  grid point over the staged blocks); the reference's is its run with the result forgotten. The
  idealization rewrote nothing, so `preserves` has nothing to state.
-/
import proofs.«170817_j16226386444980_1_alg».proof.Defs
import proofs.«170817_j16226386444980_1_alg».proof.Proof.Gen.Kernel
import proofs.«170817_j16226386444980_1_alg».proof.Proof.Gen.Kernel.Frame
import proofs.«170817_j16226386444980_1_alg».proof.Proof.Gen.KernelIdeal
import proofs.«170817_j16226386444980_1_alg».proof.Proof.Gen.KernelIdeal.Frame
import proofs.«170817_j16226386444980_1_alg».proof.Proof.Gen.ReferenceIdeal
import proofs.«170817_j16226386444980_1_alg».proof.Proof.Gen.ReferenceIdeal.Run
import proofs.«170817_j16226386444980_1_alg».proof.Proof.Gen.Pre_finite_inputs
import proofs.«170817_j16226386444980_1_alg».proof.Proof.KRun
import proofs.«170817_j16226386444980_1_alg».proof.Proof.KValue
import proofs.«170817_j16226386444980_1_alg».proof.Proof.RefSide
import proofs.«170817_j16226386444980_1_alg».proof.Proof.Finite
import proofs.«170817_j16226386444980_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result, from memories agreeing on the arguments, is the kernel program's result array. -/
theorem results_agree (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v49 (F := Ideal) m' c
      = Cert.KernelIdeal.Gen.W6 m g c (Proc.devRef .tc Cert.KernelIdeal.main_v27) := by
  rw [Cert.ReferenceIdeal.RefSide.res_eq, h0, h1, h2, h3, h4, Cert.KernelIdeal.KValue.value]
  obtain ⟨r0, r2, r3, _⟩ := Cert.Finite.inputs_real _ _ _ _ _ (hpre c)
  exact Cert.Bridge.result_eq _ _ _ _ _ r0 r2 r3 (fun j => Cert.Finite.dis_isReal _ _ r2 j)

theorem algebraic : Cert.algebraic_KernelIdeal_ReferenceIdeal := by
  intro m g m' g' hpre hagree
  refine ⟨fun c => Cert.KernelIdeal.Gen.W6 m g c (Proc.devRef .tc Cert.KernelIdeal.main_v27),
    Cert.KernelIdeal.Run.run_named (F := Ideal) m g, ?_⟩
  refine (θ_run Cert.ReferenceIdeal.defs _ _).mono (fun r h c => ⟨(h c).1.trans ?_, (h c).2⟩)
    (Cert.ReferenceIdeal.Value.run (F := Ideal) m' g')
  exact results_agree m g m' hpre c (hagree c).1 (hagree c).2.1 (hagree c).2.2.1 (hagree c).2.2.2.1 (hagree c).2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
